-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S8192x8192 : Shape := ⟨2, ![8192, 8192]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩
abbrev S2048 : Shape := ⟨1, ![2048]⟩
abbrev S2048x1 : Shape := ⟨2, ![2048, 1]⟩
abbrev S1x2048 : Shape := ⟨2, ![1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S2048x64, .f32⟩
  | .local _ .vmem, ⟨3, _⟩ => ⟨S2048x64, .f32⟩
  | .local _ .vmem, ⟨4, _⟩ => ⟨S1024x2048, .f32⟩
  | .local _ .vmem, ⟨5, _⟩ => ⟨S1024x2048, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x64_S1024x64_0_0 : ∀ a, (![0, 0] : Fin 2 → Nat) a + S1024x64.size a ≤ S1024x64.size a
  h_S1024x64 : 0 < S1024x64.numel
  inb_S2048x64_S2048x64_0_0 : ∀ a, (![0, 0] : Fin 2 → Nat) a + S2048x64.size a ≤ S2048x64.size a
  h_S2048x64 : 0 < S2048x64.numel
  reduces_S1024x64_S1024 : S1024x64.Reduces [1] S1024
  shapeCasts_S1024_S1024x1 : S1024.ShapeCasts S1024x1
  reduces_S2048x64_S2048 : S2048x64.Reduces [1] S2048
  shapeCasts_S2048_S2048x1 : S2048.ShapeCasts S2048x1
  shapeCasts_S2048x1_S1x2048 : S2048x1.ShapeCasts S1x2048
  bitsLt_bf16_f32 : FTy.bits .bf16 < FTy.bits .f32
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x64_S2048x64_S1024x2048_1_1_0_0_n_n_wf : DotDims.WF S1024x64 S2048x64 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .f32 = 32 ∨ (Rect.block (s := S8192x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .f32 = 32 ∨ (Rect.block (s := S8192x8192) S1024x2048.size (cc0_transform_2 i) (hinb0_2 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.Spec.lean ====
/-
  The function both programs compute, one output entry at a time.

  For a row `u` of the first array and a row `v` of the second (64 entries each) the output entry is
  `exp (−1 · max ((‖u‖² + ‖v‖²) − 2 · ⟨u, v⟩, 0))`: the squared distance ‖u − v‖² written through the Gram
  expansion, clamped at zero, and sent through the Gaussian. The two squared norms and the inner product are
  plain sums over the 64 columns; on the extended reals a finite sum does not depend on the order or grouping
  of its terms, so neither tiling the rows nor the unit that forms the inner product changes the value.
  The three float literals (−1, 2, 0) stay as their words: both programs print the same words.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.GaussGram

/-- One output entry from a row `u` of the first array and a row `v` of the second:
    `exp (−1 · max ((Σ u² + Σ v²) − 2 · Σ u·v, 0))`. -/
def entry (u v : Fin 64 → EReal) : EReal :=
  Ideal.exp (Ideal.ofBits .f32 0xBF800000#32 *
    max (((∑ k : Fin 64, u k * u k) + (∑ k : Fin 64, v k * v k))
          - Ideal.ofBits .f32 0x40000000#32 * (∑ k : Fin 64, u k * v k))
        (Ideal.ofBits .f32 0x00000000#32))

/-- The whole 8192 × 8192 result: entry `(p, q)` is `entry` of row `p` of `x` and row `q` of `y`. -/
def gram (x y : (⟨2, ![8192, 64]⟩ : Shape).Idx → EReal) : (⟨2, ![8192, 8192]⟩ : Shape).Idx → EReal :=
  fun i => entry (fun k => x (ix2 (i 0) k)) (fun k => y (ix2 (i 1) k))

theorem gram_apply (x y : (⟨2, ![8192, 64]⟩ : Shape).Idx → EReal) (p q : Fin 8192) :
    gram x y (ix2 p q) = entry (fun k => x (ix2 p k)) (fun k => y (ix2 q k)) := rfl

end Cert.GaussGram

end
-- ==== Proof.LibColumnLayout.lean ====
/-
  Three re-layings of a column of numbers, each read at an index.

  A vector of `a` numbers is laid out as an `a × 1` column (entry `(i, 0)` is entry `i`), a column as a `1 × a`
  row (entry `(0, i)` is the column's entry `(i, 0)`), and a column is repeated along `b` columns (entry
  `(p, c)` is the column's entry `(p, 0)`). In each case both positions have the same row-major rank, or the
  repeated axis has extent one.
-/
import Idealize.ShloMosaic.Lib.Pipeline.Value
import Idealize.ShloMosaic.Lib.ValueIdx
import Idealize.ShloMosaic.Lib.ValueLayout

noncomputable section

open Idealize.ShloMosaic Idealize.ShloMosaic.ValueIdx

namespace Cert.GaussGram.Layout

variable {α : Type}

/-- A vector of `a` entries cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to a `1 × a` row reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `a × 1` column broadcast to `a × b` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GaussGram.Layout

end
-- ==== Proof.KernelEntry.lean ====
/-
  One grid point's output block, entry by entry.

  From a 1024 × 64 block `x0` of the first array and a 2048 × 64 block `x1` of the second, the body's stored value
  at `(p, q)` is `entry` of row `p` of `x0` and row `q` of `x1`: the lane sums of the squares are the two squared
  norms (re-laid as a column, respectively as a row, and repeated over the block), narrowing the factors to the
  short float format changes nothing on the extended reals, and the matrix unit's product into a zero
  accumulator, contracting the 64 columns of both blocks, is the inner product of the two rows.
-/
import proofs.«156248_j65481071402788_1_alg».proof.Proof.Gen.KernelIdeal.Skeleton
import proofs.«156248_j65481071402788_1_alg».proof.Proof.Spec
import proofs.«156248_j65481071402788_1_alg».proof.Proof.LibColumnLayout
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Entry

open Cert.KernelIdeal Cert.KernelIdeal.Gen
open Idealize.ShloMosaic Idealize.ShloMosaic.ValueIdx Cert.GaussGram Cert.GaussGram.Layout

/-! ## The matrix unit's product: rows against rows -/

theorem lhs_ax0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhs_ax1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem rhs_ax0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhs_ax1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- The product of a 1024 × 64 block and a 2048 × 64 block over their 64 columns, into zero, at `(p, q)`: the inner
    product of row `p` of the first and row `q` of the second. -/
theorem matmul_entry (a : FVec Ideal S1024x64 .bf16) (b : FVec Ideal S2048x64 .bf16) (p : Fin 1024) (q : Fin 2048) :
    matmul dot_S1024x64_S2048x64_S1024x2048_1_1_0_0_n_n none a b (constant (F := Ideal) S1024x2048 .f32 0x00000000#32) (ix2 p q)
      = ∑ k : Fin 64, a (ix2 p k) * b (ix2 q k) := by
  refine (Ideal.matmul_constant_zero_apply dot_S1024x64_S2048x64_S1024x2048_1_1_0_0_n_n none a b (ix2 p q)).trans ?_
  rw [← Equiv.sum_comp (contrEquiv1 dot_S1024x64_S2048x64_S1024x2048_1_1_0_0_n_n 64 rfl rfl).symm]
  refine Finset.sum_congr rfl fun k _ => ?_
  have hk := contrEquiv1_symm_val dot_S1024x64_S2048x64_S1024x2048_1_1_0_0_n_n 64 rfl rfl k
  have el : dot_S1024x64_S2048x64_S1024x2048_1_1_0_0_n_n.lhsIdx (ix2 p q) ((contrEquiv1 dot_S1024x64_S2048x64_S1024x2048_1_1_0_0_n_n 64 rfl rfl).symm k) = ix2 p k := funext fun ax => Fin.ext (by
    match ax with
    | ⟨0, _⟩ => exact lhs_ax0 _ _
    | ⟨1, _⟩ => exact (lhs_ax1 _ _).trans hk)
  have er : dot_S1024x64_S2048x64_S1024x2048_1_1_0_0_n_n.rhsIdx (ix2 p q) ((contrEquiv1 dot_S1024x64_S2048x64_S1024x2048_1_1_0_0_n_n 64 rfl rfl).symm k) = ix2 q k := funext fun ax => Fin.ext (by
    match ax with
    | ⟨0, _⟩ => exact rhs_ax0 _ _
    | ⟨1, _⟩ => exact (rhs_ax1 _ _).trans hk)
  rw [el, er]

/-! ## The lane sums: a row's sum -/

/-- The lane sum of a 1024 × 64 block at row `p` is the sum of that row's 64 entries. -/
theorem rowsum1024 (v : FVec Ideal S1024x64 .f32) (hacc : (0x00000000#32 : BitVec 32) = 0x00000000#32) (p : Fin 1024) :
    multiReduction .add [1] S1024 v 0x00000000#32 reduces_S1024x64_S1024 (.inl rfl) hacc (ix1 p) = ∑ k : Fin 64, v (ix2 p k) := by
  refine (Ideal.multiReduction_add_single v 0x00000000#32 reduces_S1024x64_S1024 (.inl rfl) hacc (ix1 p)).trans ?_
  refine Finset.sum_congr rfl fun k _ => congrArg v ?_
  exact funext fun ax => Fin.ext (by match ax with | ⟨0, _⟩ => rfl | ⟨1, _⟩ => rfl)

/-- The lane sum of a 2048 × 64 block at row `q` is the sum of that row's 64 entries. -/
theorem rowsum2048 (v : FVec Ideal S2048x64 .f32) (hacc : (0x00000000#32 : BitVec 32) = 0x00000000#32) (q : Fin 2048) :
    multiReduction .add [1] S2048 v 0x00000000#32 reduces_S2048x64_S2048 (.inl rfl) hacc (ix1 q) = ∑ k : Fin 64, v (ix2 q k) := by
  refine (Ideal.multiReduction_add_single v 0x00000000#32 reduces_S2048x64_S2048 (.inl rfl) hacc (ix1 q)).trans ?_
  refine Finset.sum_congr rfl fun k _ => congrArg v ?_
  exact funext fun ax => Fin.ext (by match ax with | ⟨0, _⟩ => rfl | ⟨1, _⟩ => rfl)

/-! ## The stored value at an index -/

/-- What the body stores at `(p, q)` of its output block, from the two input blocks. -/
theorem payload_entry (x0 : FVec Ideal S1024x64 .f32) (x1 : FVec Ideal S2048x64 .f32) (p : Fin 1024) (q : Fin 2048) :
    k0_pay1 (F := Ideal) x0 x1 (ix2 p q) = entry (fun k => x0 (ix2 p k)) (fun k => x1 (ix2 q k)) := by
  have hA : broadcastTo S1024x2048 (shapeCast S1024x1 (multiReduction (F := Ideal) .add [1] S1024 (mulf x0 x0) 0x00000000#32
        reduces_S1024x64_S1024 (.inl rfl) rfl) shapeCasts_S1024_S1024x1) broadcasts_S1024x1_S1024x2048 (ix2 p q)
      = ∑ k : Fin 64, x0 (ix2 p k) * x0 (ix2 p k) := by
    refine (broadcastTo_a1_ab_apply _ _ p q).trans ?_
    refine (shapeCast_a_a1_apply _ _ p 0).trans ?_
    exact rowsum1024 (mulf x0 x0) rfl p
  have hB : broadcastTo S1024x2048 (shapeCast S1x2048 (shapeCast S2048x1 (multiReduction (F := Ideal) .add [1] S2048 (mulf x1 x1) 0x00000000#32
        reduces_S2048x64_S2048 (.inl rfl) rfl) shapeCasts_S2048_S2048x1) shapeCasts_S2048x1_S1x2048) broadcasts_S1x2048_S1024x2048 (ix2 p q)
      = ∑ k : Fin 64, x1 (ix2 q k) * x1 (ix2 q k) := by
    refine (broadcastTo_1b_ab_apply _ _ p q).trans ?_
    refine (shapeCast_a1_1a_apply _ _ 0 q).trans ?_
    refine (shapeCast_a_a1_apply _ _ q 0).trans ?_
    exact rowsum2048 (mulf x1 x1) rfl q
  have hC : matmul dot_S1024x64_S2048x64_S1024x2048_1_1_0_0_n_n none (truncf .bf16 x0 bitsLt_bf16_f32) (truncf .bf16 x1 bitsLt_bf16_f32)
        (constant (F := Ideal) S1024x2048 .f32 0x00000000#32) (ix2 p q)
      = ∑ k : Fin 64, x0 (ix2 p k) * x1 (ix2 q k) :=
    matmul_entry (truncf .bf16 x0 bitsLt_bf16_f32) (truncf .bf16 x1 bitsLt_bf16_f32) p q
  unfold k0_pay1 entry
  exact congrArg Ideal.exp (congrArg (Ideal.ofBits .f32 0xBF800000#32 * ·)
    (congrArg (max · (Ideal.ofBits .f32 0x00000000#32))
      (congrArg₂ (· - ·) (congrArg₂ (· + ·) hA hB) (congrArg (Ideal.ofBits .f32 0x40000000#32 * ·) hC))))

end Cert.KernelIdeal.Entry

end
-- ==== Proof.KernelGram.lean ====
/-
  The kernel's result array is `gram`.

  The grid has 8 × 4 points; point `(i, j)` reads rows `1024·i …` of the first array and rows `2048·j …` of the
  second (all 64 columns of each) and writes the `1024 × 2048` block of the result at block position `(i, j)`.
  Entry `(p, q)` of that block is `entry` of row `p` of the first block and row `q` of the second, that is of
  row `1024·i + p` of the first array and row `2048·j + q` of the second: the block is the restriction of
  `gram` to its rectangle. The 32 rectangles cover the `8192 × 8192` array (row `r`, column `s` lies in
  block `(r / 1024, s / 2048)`), so the array ends at `gram` of the two argument arrays.
-/
import proofs.«156248_j65481071402788_1_alg».proof.Proof.Gen.KernelIdeal.Value
import proofs.«156248_j65481071402788_1_alg».proof.Proof.KernelEntry
import proofs.«156248_j65481071402788_1_alg».proof.Proof.Spec
import Idealize.ShloMosaic.Lib.Pipeline.Value
import Idealize.ShloMosaic.Lib.ValueIdx

set_option maxRecDepth 16384

noncomputable section

open scoped BigOperators

namespace Cert.KernelIdeal.Whole

open Cert.KernelIdeal Cert.KernelIdeal.Gen Cert.KernelIdeal.Value Cert.KernelIdeal.Entry
open Idealize.ShloMosaic Idealize.ShloMosaic.TcCoe Idealize.SL.Sem Idealize.ShloMosaic.ValueIdx Cert.GaussGram
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The index maps over the 32 grid points: the first input's row block is the output's row block, the second
    input's row block is the output's column block, both inputs take all their columns, and the output's block
    position stays inside 8 × 4. -/
theorem block_positions : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 3 :=
  (by decide +kernel : ∀ t : Fin grid0.N, _)

/-- Every block position of the 8 × 4 tiling is some grid point's. -/
theorem block_onto : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- What point `t` writes back is block `t` of `gram` of the argument arrays. -/
theorem flushed_eq_gram (c : Dev nD) (t : Fin cfg0.N) :
    (dats m 0 c).flushed 2 t = ((cfg0.win 2).blk t).view.read (Elt Ideal) (gram (V m c main_arg0) (V m c main_arg1)) := by
  rw [Value.flushed2]
  unfold out0_2
  rw [View.canon_unit_zero origin]
  simp only [View.ld_unit_zero (S := S1024x64) origin, View.ld_unit_zero (S := S2048x64) origin]
  obtain ⟨e0, e1, e2, e3, e4, e5⟩ := block_positions t
  funext j
  obtain ⟨p, q, rfl⟩ : ∃ (p : Fin 1024) (q : Fin 2048), j = ix2 p q := ⟨j 0, j 1, eq_ix2 j⟩
  show k0_pay1 (F := Ideal) (iblk m c 0 t) (iblk m c 1 t) (ix2 p q)
    = gram (V m c main_arg0) (V m c main_arg1) (((cfg0.win 2).blk t).view.emb (ix2 p q))
  refine (payload_entry (iblk m c 0 t) (iblk m c 1 t) p q).trans ?_
  have hx : ∀ k : Fin 64, iblk m c 0 t (ix2 p k)
      = V m c main_arg0 (ix2 (n0 := 8192) (n1 := 64) (((cfg0.win 2).blk t).view.emb (ix2 p q) 0) k) := fun k => by
    show V m c main_arg0 (((cfg0.win 0).blk t).view.emb (ix2 p k)) = _
    refine congrArg (V m c main_arg0) (funext fun a => Fin.ext ?_)
    match a with
    | ⟨0, _⟩ =>
      show win0_0.index t (0 : Fin 2) * 1024 + 1 * p.val = win0_2.index t (0 : Fin 2) * 1024 + 1 * p.val
      omega
    | ⟨1, _⟩ =>
      show win0_0.index t (1 : Fin 2) * 64 + 1 * k.val = k.val
      omega
  have hy : ∀ k : Fin 64, iblk m c 1 t (ix2 q k)
      = V m c main_arg1 (ix2 (n0 := 8192) (n1 := 64) (((cfg0.win 2).blk t).view.emb (ix2 p q) 1) k) := fun k => by
    show V m c main_arg1 (((cfg0.win 1).blk t).view.emb (ix2 q k)) = _
    refine congrArg (V m c main_arg1) (funext fun a => Fin.ext ?_)
    match a with
    | ⟨0, _⟩ =>
      show win0_1.index t (0 : Fin 2) * 2048 + 1 * q.val = win0_2.index t (1 : Fin 2) * 2048 + 1 * q.val
      omega
    | ⟨1, _⟩ =>
      show win0_1.index t (1 : Fin 2) * 64 + 1 * k.val = k.val
      omega
  exact congrArg₂ entry (funext hx) (funext hy)

/-- An index of the result array is in point `t`'s block iff each coordinate is in the block's range on its axis. -/
theorem mem_block (t : Fin cfg0.N) (i : S8192x8192.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v0).slice (win0_2.rect t)).set ↔ _
  rw [View.set_slice_whole, Rect.mem_set_unit]
  exact Iff.rfl

/-- Every index of the result array lies in some grid point's block: row `r`, column `s` in block `(r / 1024, s / 2048)`. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := block_onto ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-- The result array after the run is `gram` of the two argument arrays. -/
theorem final_eq_gram (c : Dev nD) :
    (dats m 0 c).arrAt 2 cfg0.N = gram (m ((c : Thread nD τ).loc main_arg0)) (m ((c : Thread nD τ).loc main_arg1)) :=
  (dats m 0 c).arrAt_eq_of_cover 2 (gram (V m c main_arg0) (V m c main_arg1)) (fun t _ => flushed_eq_gram m c t) covered

/-- The kernel's run: every weakly fair execution terminates with the result array at `gram` of the argument
    arrays and the argument arrays unchanged. -/
theorem run : θ_run defs (onTc (τ := τ) (main (F := Ideal))) ⟨m, fun _ => 0, ρ⟩ fun r => ∀ c : Dev nD,
      r.2.mem ((c : Thread nD τ).loc main_v0) = gram (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_eq_gram m c), (h c).2⟩) (Value.run_blocks m ρ)

end Cert.KernelIdeal.Whole

end
-- ==== Proof.RefGram.lean ====
/-
  The reference's result is `gram`.

  Read one operation at a time, the reference's last stage at `(p, q)` is the Gaussian of −1 times the clamp at
  zero of `(0 + Σₖ x(p,k)·x(p,k)) + (0 + Σₖ y(q,k)·y(q,k)) − 2 · Σₖ x(p,k)·y(q,k)`: the two row sums start from
  the zero word, which is the real zero, and every re-laying (a vector to a column or a row, a column or a row
  repeated over the square) reads the row sum of row `p` of `x`, respectively of row `q` of `y`.
-/
import proofs.«156248_j65481071402788_1_alg».proof.Proof.Gen.ReferenceIdeal.Read
import proofs.«156248_j65481071402788_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.GaussGram

/-- Row `p`, column `k` of `x` is what the first row sum reads for output `(p, q)`, through the column and its repetition. -/
theorem idx_rowsum_x (p q : Fin 8192) (k : Fin 64) :
    idx_main_v1 (idx_main_v5 (idx_main_v7 (ix2 p q))) k = ix2 p k :=
  funext fun a => Fin.ext (by match a with | ⟨0, _⟩ => rfl | ⟨1, _⟩ => rfl)

/-- Row `q`, column `k` of `y` is what the second row sum reads for output `(p, q)`, through the row and its repetition. -/
theorem idx_rowsum_y (p q : Fin 8192) (k : Fin 64) :
    idx_main_v3 (idx_main_v6 (idx_main_v8 (ix2 p q))) k = ix2 q k :=
  funext fun a => Fin.ext (by match a with | ⟨0, _⟩ => rfl | ⟨1, _⟩ => rfl)

/-- The contraction's left factor for output `(p, q)` is `x (p, k)`. -/
theorem idx_dot_x (p q : Fin 8192) (k : Fin 64) : lidx_main_v4 (ix2 p q) k = ix2 p k :=
  funext fun a => Fin.ext (by match a with | ⟨0, _⟩ => rfl | ⟨1, _⟩ => rfl)

/-- The contraction's right factor for output `(p, q)` is `y (q, k)`. -/
theorem idx_dot_y (p q : Fin 8192) (k : Fin 64) : ridx_main_v4 (ix2 p q) k = ix2 q k :=
  funext fun a => Fin.ext (by match a with | ⟨0, _⟩ => rfl | ⟨1, _⟩ => rfl)

/-- The reference's last stage is `gram` of its two arguments. -/
theorem stage_eq_gram (x0 x1 : (⟨S8192x64, .f32⟩ : BufTy).Contents (Elt Ideal)) :
    val_main_v17 (F := Ideal) x0 x1 = gram x0 x1 := by
  funext i
  obtain ⟨p, q, rfl⟩ : ∃ (p q : Fin 8192), i = ix2 p q := ⟨i 0, i 1, eq_ix2 i⟩
  rw [gram_apply]
  simp only [val_main_v17_apply, val_main_v16_apply, val_main_v15_apply, val_main_cst_3_apply, val_main_v14_apply,
    val_main_v13_apply, val_main_cst_2_apply, val_main_v12_apply, val_main_v11_apply, val_main_v10_apply,
    val_main_cst_1_apply, val_main_v4_apply, val_main_v9_apply, val_main_v7_apply, val_main_v5_apply, val_main_v1_apply,
    val_main_v8_apply, val_main_v6_apply, val_main_v3_apply, val_main_cst_apply, val_main_cst_0_apply,
    val_main_v0_apply, val_main_v2_apply,
    idx_rowsum_x, idx_rowsum_y, idx_dot_x, idx_dot_y]
  unfold entry
  simp only [Ideal.hostUnary_exp_def, Ideal.mulf_def, Ideal.maximumf_def, Ideal.subf_def, Ideal.addf_def, Ideal.ofBits_def,
    Ideal.ofBits_zero_f32, zero_add]

end Cert.ReferenceIdeal.RefValue

end
-- ==== Proof.lean ====
/-
  The Gaussian Gram matrix of two point sets: the tiled kernel and the whole-array reference agree on the
  extended reals.

  Both programs compute, for row `p` of `x` and row `q` of `y` (64 columns each),
  `exp (−1 · max ((‖x_p‖² + ‖y_q‖²) − 2 · ⟨x_p, y_q⟩, 0))` (`GaussGram.gram`). The kernel does it one
  `1024 × 2048` block of the result per grid point, from a row block of each argument: the squared norms are
  lane sums, the inner products come from the matrix unit with the factors narrowed to a short float format
  (no change on the extended reals) and a zero accumulator, and the 32 blocks tile the result
  (`KernelIdeal.Whole.run`). The reference does it on whole arrays: two row sums started at zero, one
  contraction over the columns, and broadcasts (`ReferenceIdeal.RefValue.stage_eq_gram`). The two squared norms
  and the inner product are the same finite sums on both sides, and the remaining operations are applied in the
  same order with the same three literals, so no property of the inputs is used. The idealized kernel is the
  kernel's own text read on the extended reals, so the preservation claim has nothing to state; each frame is
  the program's run with the result dropped.
-/
import proofs.«156248_j65481071402788_1_alg».proof.Defs
import proofs.«156248_j65481071402788_1_alg».proof.Proof.Gen.Kernel
import proofs.«156248_j65481071402788_1_alg».proof.Proof.Gen.Kernel.Skeleton
import proofs.«156248_j65481071402788_1_alg».proof.Proof.Gen.Kernel.Launch
import proofs.«156248_j65481071402788_1_alg».proof.Proof.Gen.Kernel.Points
import proofs.«156248_j65481071402788_1_alg».proof.Proof.Gen.Kernel.Frame
import proofs.«156248_j65481071402788_1_alg».proof.Proof.Gen.KernelIdeal
import proofs.«156248_j65481071402788_1_alg».proof.Proof.Gen.KernelIdeal.Skeleton
import proofs.«156248_j65481071402788_1_alg».proof.Proof.Gen.KernelIdeal.Launch
import proofs.«156248_j65481071402788_1_alg».proof.Proof.Gen.KernelIdeal.Points
import proofs.«156248_j65481071402788_1_alg».proof.Proof.Gen.KernelIdeal.Frame
import proofs.«156248_j65481071402788_1_alg».proof.Proof.Gen.ReferenceIdeal
import proofs.«156248_j65481071402788_1_alg».proof.Proof.Gen.Pre_finite_inputs
import proofs.«156248_j65481071402788_1_alg».proof.Proof.Gen.KernelIdeal.Value
import proofs.«156248_j65481071402788_1_alg».proof.Proof.Gen.ReferenceIdeal.Run
import proofs.«156248_j65481071402788_1_alg».proof.Proof.Gen.ReferenceIdeal.Read
import proofs.«156248_j65481071402788_1_alg».proof.Proof.KernelGram
import proofs.«156248_j65481071402788_1_alg».proof.Proof.RefGram
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the two arguments, the kernel's result array ends at `gram` of them (the 32 blocks
    tile it) and the reference's last stage is `gram` of them (read operation by operation). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v17_eq _ _).trans (Cert.ReferenceIdeal.RefValue.stage_eq_gram _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
